-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16x256 : Shape := ⟨3, ![50000, 16, 256]⟩
abbrev S256x256 : Shape := ⟨2, ![256, 256]⟩
abbrev S256 : Shape := ⟨1, ![256]⟩
abbrev S_ : Shape := ⟨0, ![]⟩

class Facts : Prop where
  bcast_S_S50000x16x256 : S_.BroadcastsInDim S50000x16x256 (![] : Fin 0 → Fin S50000x16x256.rank)
  reducesTo_S50000x16x256_S_d0_1_2 : S50000x16x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x16x256 .f32) (main_arg1 : FVec F S256x256 .f32) (main_arg2 : FVec F S256 .f32) : IVec S_ 1 :=
  let main_v0 : FVec F S50000x16x256 .f32 := Host.absf main_arg0
  let main_cst : FVec F S_ .f32 := constant S_ .f32 0x7F800000#32
  let main_v1 : FVec F S50000x16x256 .f32 := broadcastInDim S50000x16x256 ![] bcast_S_S50000x16x256 main_cst
  let main_v2 : IVec S50000x16x256 1 := cmpf .olt main_v0 main_v1
  let main_c : IVec S_ 1 := constantI S_ 1 1#1
  let main_v3 : IVec S_ 1 := (fun x v => Host.reduce IntOp.andi x v reducesTo_S50000x16x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x16x256 : Shape := ⟨3, ![50000, 16, 256]⟩
abbrev S256x256 : Shape := ⟨2, ![256, 256]⟩
abbrev S256 : Shape := ⟨1, ![256]⟩
abbrev S400x16x256 : Shape := ⟨3, ![400, 16, 256]⟩
abbrev S400x256 : Shape := ⟨2, ![400, 256]⟩
abbrev S1x256 : Shape := ⟨2, ![1, 256]⟩
abbrev S400x1x256 : Shape := ⟨3, ![400, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S50000x16x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S50000x16x256, .f32⟩
  | .local _ .vmem, ⟨0, _⟩ => ⟨S400x16x256, .f32⟩
  | .local _ .vmem, ⟨1, _⟩ => ⟨S400x16x256, .f32⟩
  | .local _ .vmem, ⟨2, _⟩ => ⟨S256x256, .f32⟩
  | .local _ .vmem, ⟨3, _⟩ => ⟨S256, .f32⟩
  | .local _ .vmem, ⟨4, _⟩ => ⟨S400x16x256, .f32⟩
  | .local _ .vmem, ⟨5, _⟩ => ⟨S400x16x256, .f32⟩
  | _, _ => ⟨S50000x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  inb_S400x16x256_S400x16x256_0_0_0 : ∀ a, (![0, 0, 0] : Fin 3 → Nat) a + S400x16x256.size a ≤ S400x16x256.size a
  h_S400x16x256 : 0 < S400x16x256.numel
  reduces_S400x16x256_S400x256 : S400x16x256.Reduces [1] S400x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  shapeCasts_S400x256_S400x1x256 : S400x256.ShapeCasts S400x1x256
  broadcasts_S400x1x256_S400x16x256 : S400x1x256.Broadcasts S400x16x256
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x16x256.size a ≤ S50000x16x256.size a
  hwx0_0 : ∀ i : grid0.Coords, EltTy.bits .f32 = 32 ∨ (Rect.block (s := S50000x16x256) S400x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x16x256.size a ≤ S50000x16x256.size a
  hwx0_3 : ∀ i : grid0.Coords, EltTy.bits .f32 = 32 ∨ (Rect.block (s := S50000x16x256) S400x16x256.size (cc0_transform_3 i) (hinb0_3 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S400x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x16x256 : Shape := ⟨3, ![50000, 16, 256]⟩
abbrev S256x256 : Shape := ⟨2, ![256, 256]⟩
abbrev S256 : Shape := ⟨1, ![256]⟩
abbrev S_ : Shape := ⟨0, ![]⟩
abbrev S50000x256 : Shape := ⟨2, ![50000, 256]⟩
abbrev S50000x1x256 : Shape := ⟨3, ![50000, 1, 256]⟩
abbrev S1x1x256 : Shape := ⟨3, ![1, 1, 256]⟩

abbrev nBuf : Space → Nat
  | .hbm => 22
  | .vmem => 0
  | .smem => 0
  | _ => 0

abbrev bufTy : (tb : Table) → Fin (tcTables nBuf tb) → BufTy
  | .hbm, ⟨0, _⟩ => ⟨S50000x16x256, .f32⟩
  | .hbm, ⟨1, _⟩ => ⟨S256x256, .f32⟩
  | .hbm, ⟨2, _⟩ => ⟨S256, .f32⟩
  | .hbm, ⟨3, _⟩ => ⟨S50000x16x256, .f32⟩
  | .hbm, ⟨4, _⟩ => ⟨S_, .f32⟩
  | .hbm, ⟨5, _⟩ => ⟨S50000x256, .f32⟩
  | .hbm, ⟨6, _⟩ => ⟨S50000x1x256, .f32⟩
  | .hbm, ⟨7, _⟩ => ⟨S50000x1x256, .f32⟩
  | .hbm, ⟨8, _⟩ => ⟨S50000x1x256, .f32⟩
  | .hbm, ⟨9, _⟩ => ⟨S1x1x256, .f32⟩
  | .hbm, ⟨10, _⟩ => ⟨S50000x1x256, .f32⟩
  | .hbm, ⟨11, _⟩ => ⟨S50000x1x256, .f32⟩
  | .hbm, ⟨12, _⟩ => ⟨S50000x1x256, .f32⟩
  | .hbm, ⟨13, _⟩ => ⟨S50000x1x256, .f32⟩
  | .hbm, ⟨14, _⟩ => ⟨S_, .f32⟩
  | .hbm, ⟨15, _⟩ => ⟨S50000x1x256, .f32⟩
  | .hbm, ⟨16, _⟩ => ⟨S50000x1x256, .f32⟩
  | .hbm, ⟨17, _⟩ => ⟨S_, .f32⟩
  | .hbm, ⟨18, _⟩ => ⟨S50000x1x256, .f32⟩
  | .hbm, ⟨19, _⟩ => ⟨S50000x1x256, .f32⟩
  | .hbm, ⟨20, _⟩ => ⟨S50000x16x256, .f32⟩
  | .hbm, ⟨21, _⟩ => ⟨S50000x16x256, .f32⟩
  | _, _ => ⟨S50000x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S50000x256_S50000x1x256_0_2 : S50000x256.BroadcastsInDim S50000x1x256 (![0, 2] : Fin 2 → Fin S50000x1x256.rank)
  bcast_S256_S1x1x256_2 : S256.BroadcastsInDim S1x1x256 (![2] : Fin 1 → Fin S1x1x256.rank)
  bcast_S1x1x256_S50000x1x256_0_1_2 : S1x1x256.BroadcastsInDim S50000x1x256 (![0, 1, 2] : Fin 3 → Fin S50000x1x256.rank)
  bcast_S_S50000x1x256 : S_.BroadcastsInDim S50000x1x256 (![] : Fin 0 → Fin S50000x1x256.rank)
  bcast_S50000x1x256_S50000x16x256_0_1_2 : S50000x1x256.BroadcastsInDim S50000x16x256 (![0, 1, 2] : Fin 3 → Fin S50000x16x256.rank)
  dot_S50000x1x256_S256x256_S50000x1x256_2_1_01_0_n_n_wf : DotDims.WF S50000x1x256 S256x256 S50000x1x256 [2] [1] [0, 1] [0] [] []

variable [Facts₀]

def dot_S50000x1x256_S256x256_S50000x1x256_2_1_01_0_n_n : DotDims S50000x1x256 S256x256 S50000x1x256 where
  lhsContracting := [2]
  rhsContracting := [1]
  lhsNonContracting := [0, 1]
  rhsNonContracting := [0]
  lhsBatch := []
  rhsBatch := []
  wf := dot_S50000x1x256_S256x256_S50000x1x256_2_1_01_0_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.GateSpec.lean ====
/-
  What both programs compute, as one function of the three argument arrays. x holds 50000 nodes, each a 16 × 256 slab
  (16 components of 256 features). For one node, the norm of feature c is the square root of the sum over the 16
  components of the squares of the node's entries at c. The node's gate at feature q is the logistic function of
  (the sum over c of norm(c) times the weight from c to q) plus the bias at q: a dense layer on the row of norms. The
  result multiplies every entry of x by its node's gate at the entry's feature. The weight from feature c to feature
  q is the entry (q, c) of W: the layer multiplies by the transpose of W.
-/
import Idealize.ShloMosaic.PureOps.Ideal.Laws
import Idealize.ShloMosaic.Lib.ValueIdx
import proofs.«156940_j34772055229039_1_alg».proof.Proof.LibDenseRows

noncomputable section

namespace Cert.Gate

open Idealize.ShloMosaic Idealize.ShloMosaic.ValueIdx

/-- The gate of one node at feature `q`: from the node's slab `xs` (component, feature), the weights `Wt` (entry
    `(c, q)` the weight from feature `c` to feature `q`) and the bias. -/
def gate {K D : ℕ} (xs : Fin K → Fin D → EReal) (Wt : Fin D → Fin D → EReal) (b : Fin D → EReal) (q : Fin D) : EReal :=
  Ideal.logistic (Cert.LibDenseRows.dense (fun c => Ideal.sqrt (∑ j : Fin K, xs j c * xs j c)) Wt b q)

/-- The result at node `n`, component `k`, feature `q`. -/
def gated (x : (⟨3, ![50000, 16, 256]⟩ : Shape).Idx → EReal) (W : (⟨2, ![256, 256]⟩ : Shape).Idx → EReal)
    (b : (⟨1, ![256]⟩ : Shape).Idx → EReal) (n : Fin 50000) (k : Fin 16) (q : Fin 256) : EReal :=
  x (ix3 n k q) * gate (fun j c => x (ix3 n j c)) (fun c e => W (ix2 e c)) (fun e => b (ix1 e)) q

/-- The whole result array. -/
def G (x : (⟨3, ![50000, 16, 256]⟩ : Shape).Idx → EReal) (W : (⟨2, ![256, 256]⟩ : Shape).Idx → EReal)
    (b : (⟨1, ![256]⟩ : Shape).Idx → EReal) : (⟨3, ![50000, 16, 256]⟩ : Shape).Idx → EReal :=
  fun i => gated x W b ⟨(i 0).val, (i 0).isLt⟩ ⟨(i 1).val, (i 1).isLt⟩ ⟨(i 2).val, (i 2).isLt⟩

theorem G_ix3 (x : (⟨3, ![50000, 16, 256]⟩ : Shape).Idx → EReal) (W : (⟨2, ![256, 256]⟩ : Shape).Idx → EReal)
    (b : (⟨1, ![256]⟩ : Shape).Idx → EReal) (n : Fin 50000) (k : Fin 16) (q : Fin 256) :
    G x W b (ix3 n k q) = gated x W b n k q := rfl

end Cert.Gate

end
-- ==== Proof.LibMidAxis.lean ====
/-
  Three facts about an a × k × b array and its middle axis, for any sizes. The sum over the middle axis, read at
  (p, q), is the sum over j of the entries (p, j, q). An a × b array cast to a × 1 × b reads, at (p, u, q), its entry
  (p, q): the two indices have the same row-major position. An a × 1 × b array broadcast to a × k × b reads, at
  (p, j, q), its entry (p, 0, q). Together: a statistic taken along the middle axis, kept as a middle axis of length
  one and spread back along it, is that statistic at every j. Also here: the f32 word of one denotes the real one,
  and the logistic function written out as 1 / (1 + e^(-z)) over that word is the logistic function at every
  extended real, the infinities included.
-/
import Idealize.ShloMosaic.PureOps.Ideal.Laws
import Idealize.ShloMosaic.Lib.ValueIdx
import Idealize.ShloMosaic.Lib.Pipeline.Value

namespace Cert.LibMidAxis

open Idealize.ShloMosaic Idealize.ShloMosaic.ValueIdx

variable {α : Type}

/-- An `[a, b]` array cast to `[a, 1, b]` reads, at `(p, u, q)`, the operand at `(p, q)`, whatever the unit
    coordinate `u`: both indices sit at row-major position `p * b + q`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` reads, at `(p, j, q)`, the operand at `(p, 0, q)`. -/
theorem broadcastTo_a1b_akb_apply {a k b : ℕ} (v : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ v h (ix3 p j q) = v (ix3 p (0 : Fin 1) q) := by
  refine broadcastTo_apply v h (ix3 p j q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else j.val
    rw [if_pos rfl]
  | ⟨2, _⟩ =>
    show q.val = if b = 1 then 0 else q.val
    split
    · have := q.isLt; omega
    · rfl

/-- The sum over the middle axis of an `[a, k, b]` array of extended reals, read at `(p, q)`: the sum over `j` of the
    entries `(p, j, q)`. -/
theorem sum_mid_apply {a k b : ℕ} {φ : FTy} (src : FVec Ideal ⟨3, ![a, k, b]⟩ φ) (acc : BitVec φ.bits)
    (h : (⟨3, ![a, k, b]⟩ : Shape).Reduces [1] ⟨2, ![a, b]⟩) (hφ : FKind.Formats φ) (hacc : acc = FKind.add.neutral φ hφ)
    (p : Fin a) (q : Fin b) :
    multiReduction .add [1] ⟨2, ![a, b]⟩ src acc h hφ hacc (ix2 p q) = ∑ j : Fin k, src (ix3 p j q) := by
  refine (Ideal.multiReduction_add_single src acc h hφ hacc (ix2 p q)).trans ?_
  refine Finset.sum_congr rfl fun j _ => congrArg src ?_
  funext ax
  apply Fin.ext
  match ax with
  | ⟨0, _⟩ => rfl
  | ⟨1, _⟩ => rfl
  | ⟨2, _⟩ => rfl

/-- The f32 word `0x3F800000` denotes the real number one. -/
theorem one_word : Ideal.ofBits .f32 0x3F800000#32 = 1 := by
  simp [Ideal.ofBits, Ideal.ieee, -EReal.coe_mul]; norm_num

/-- The logistic function written out, `1 / (1 + e^(-z))` with both ones the f32 word of one, is the logistic function
    at every extended real: at `⊥` both are `0` and at `⊤` both are `1`, since the two sides are one expression. -/
theorem logistic_written_out (z : EReal) :
    Ideal.div (Ideal.ofBits .f32 0x3F800000#32) (Ideal.ofBits .f32 0x3F800000#32 + Ideal.exp (-z)) = Ideal.logistic z := by
  rw [one_word]; rfl

end Cert.LibMidAxis
-- ==== Proof.GatePayload.lean ====
/-
  The kernel's body on one block of 400 nodes, read at an index. The body squares the block, sums the squares along
  the component axis and takes the root (the 400 × 256 norms), multiplies the norms by the 256 × 256 matrix it was
  handed into a zero accumulator, adds the bias as a broadcast row, applies the logistic function, spreads the
  400 × 256 gates back along the component axis and multiplies the block by them. A change of float format changes
  no entry over the extended reals. So the entry (p, k, q) of what the body stores is the block's entry (p, k, q) times
  the gate of node p of the block at feature q, with the handed matrix as the weights (entry (c, q) from c to q).
-/
import proofs.«156940_j34772055229039_1_alg».proof.Proof.Gen.KernelIdeal.Skeleton
import proofs.«156940_j34772055229039_1_alg».proof.Proof.GateSpec
import proofs.«156940_j34772055229039_1_alg».proof.Proof.LibMidAxis
import Idealize.ShloMosaic.Lib.ValueLayout

noncomputable section

namespace Cert.Gate

open Idealize.ShloMosaic Idealize.ShloMosaic.ValueIdx Cert.KernelIdeal Cert.KernelIdeal.Gen Cert.LibDenseRows Cert.LibMidAxis

theorem logistic_apply {s : Shape} {φ : FTy} (v : FVec Ideal s φ) (i : s.Idx) : logistic v i = Ideal.logistic (v i) := rfl
theorem sqrt_apply {s : Shape} {φ : FTy} (v : FVec Ideal s φ) (i : s.Idx) : sqrt v i = Ideal.sqrt (v i) := rfl

/-- The norms of a block: entry `(p, c)` is the root of the sum over the components of the squares at `(p, ·, c)`. -/
theorem norms_apply (x0 : FVec Ideal S400x16x256 .f32) (p : Fin 400) (c : Fin 256) :
    (truncf .bf16 (sqrt (multiReduction .add [1] S400x256 (mulf x0 x0) 0x00000000#32 reduces_S400x16x256_S400x256 (.inl rfl) rfl))
        bitsLt_bf16_f32 : FVec Ideal S400x256 .bf16) (ix2 p c)
      = Ideal.sqrt (∑ j : Fin 16, x0 (ix3 p j c) * x0 (ix3 p j c)) := by
  refine (sqrt_apply _ _).trans (congrArg Ideal.sqrt ?_)
  exact sum_mid_apply (mulf x0 x0) 0x00000000#32 reduces_S400x16x256_S400x256 (.inl rfl) rfl p c

/-- The handed matrix, cast to its own shape and to another float format, is itself. -/
theorem weights_apply (x1 : FVec Ideal S256x256 .f32) (c q : Fin 256) :
    (truncf .bf16 (shapeCast S256x256 x1 shapeCasts_S256x256_S256x256) bitsLt_bf16_f32 : FVec Ideal S256x256 .bf16) (ix2 c q)
      = x1 (ix2 c q) :=
  congrFun (shapeCast_self x1 shapeCasts_S256x256_S256x256) (ix2 c q)

/-- THE BODY AT AN INDEX: the block's entry times the gate of the block's node `p` at feature `q`. -/
theorem pay_apply (x0 : FVec Ideal S400x16x256 .f32) (x1 : FVec Ideal S256x256 .f32) (x2 : FVec Ideal S256 .f32)
    (p : Fin 400) (k : Fin 16) (q : Fin 256) :
    k0_pay1 (F := Ideal) x0 x1 x2 (ix3 p k q)
      = x0 (ix3 p k q) * gate (fun j c => x0 (ix3 p j c)) (fun c e => x1 (ix2 c e)) (fun e => x2 (ix1 e)) q := by
  unfold k0_pay1
  dsimp only
  refine (mulf_apply _ _ _).trans (congrArg (x0 (ix3 p k q) * ·) ?_)
  refine (broadcastTo_a1b_akb_apply _ _ p k q).trans ?_
  refine (shapeCast_ab_a1b_apply _ _ p 0 q).trans ?_
  refine (logistic_apply _ _).trans ?_
  unfold gate
  refine congrArg Ideal.logistic ?_
  refine (congrFun (kDense_row (R := 400) (K := 256) (N := 256) _ _ x2 shapeCasts_S256_S1x256 broadcasts_S1x256_S400x256 p) q).trans ?_
  unfold dense
  refine congrArg (· + x2 (ix1 q)) (Finset.sum_congr rfl fun c _ => ?_)
  exact congrArg₂ (· * ·) (norms_apply x0 p c) (weights_apply x1 c q)

end Cert.Gate

end
-- ==== Proof.GateBlocks.lean ====
/-
  From blocks to the array. The kernel runs on 125 grid points; point t is handed nodes 400·t … 400·t + 399 of x (all
  16 components, all 256 features), the whole 256 × 256 matrix the host made before the launch, which is W transposed
  (its entry (c, q) is W(q, c)), and the whole bias, and writes back the same rows of the result. So what point t
  writes back is block t of the gated array: entry (p, k, q) of the block is x(400·t + p, k, q) times the gate of
  node 400·t + p at feature q. Node n lies in block n / 400, so the 125 blocks cover the result, and the array after
  the run is the gated array.
-/
import proofs.«156940_j34772055229039_1_alg».proof.Proof.Gen.KernelIdeal.Value
import proofs.«156940_j34772055229039_1_alg».proof.Proof.GatePayload
import Idealize.ShloMosaic.Lib.ValueLayout
import Idealize.ShloMosaic.Lib.StableHlo.Run

noncomputable section

namespace Cert.Gate.Kern

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Gate

variable (m : (ℓ : Loc nD τ sig) → Buf (Elt Ideal) ℓ) (ρ : Dev nD → PrngReg)

/-! ## The matrix the region is handed -/

/-- The host transposes W before the launch: the region's second operand is W transposed. -/
theorem handed_matrix (c : Dev nD) : (V m c main_v0 : S256x256.Idx → EReal)
    = transpose S256x256 [1, 0] (m ((c : Thread nD τ).loc main_arg1)) transposes_S256x256_S256x256_1_0 := by
  dsimp only [Gen.V, Gen.hostOps0]; after_results

/-- Its entry `(a, e)` is `W (e, a)`. -/
theorem handed_matrix_apply (c : Dev nD) (a e : Fin 256) :
    (V m c main_v0 : S256x256.Idx → EReal) (ix2 a e) = m ((c : Thread nD τ).loc main_arg1) (ix2 e a) := by
  rw [handed_matrix]; exact transpose_ix2_apply _ _ a e

/-! ## One block -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at point `t`: x's and the result's at block row `t`, the matrix's and the bias's
    at the origin (decided over the 125 points). -/
theorem block_rows : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- One entry of what the body stores, when the block handed to it holds node `n` of `X` at its row `p`, the matrix
    handed to it is `W` transposed and the bias handed to it is `B`: the gated array's entry at node `n`. -/
theorem block_entry (X : S50000x16x256.Idx → EReal) (W : S256x256.Idx → EReal) (B : S256.Idx → EReal)
    (x0 : FVec Ideal S400x16x256 .f32) (x1 : FVec Ideal S256x256 .f32) (x2 : FVec Ideal S256 .f32)
    (n : Fin 50000) (p : Fin 400) (k : Fin 16) (q : Fin 256)
    (h0 : ∀ (j : Fin 16) (c : Fin 256), x0 (ix3 p j c) = X (ix3 n j c))
    (h1 : ∀ c e : Fin 256, x1 (ix2 c e) = W (ix2 e c))
    (h2 : ∀ e : Fin 256, x2 (ix1 e) = B (ix1 e)) :
    k0_pay1 (F := Ideal) x0 x1 x2 (ix3 p k q) = G X W B (ix3 n k q) := by
  have e0 : (fun j c => x0 (ix3 p j c)) = fun j c => X (ix3 n j c) := funext fun j => funext fun c => h0 j c
  have e1 : (fun c e => x1 (ix2 c e)) = fun c e => W (ix2 e c) := funext fun c => funext fun e => h1 c e
  have e2 : (fun e => x2 (ix1 e)) = fun e => B (ix1 e) := funext h2
  rw [pay_apply, G_ix3, e0, e1, e2, h0 k q]
  rfl

/-- The gated array of the arguments as launched, on device `c`. -/
abbrev GV (c : Dev nD) : S50000x16x256.Idx → EReal :=
  G (m ((c : Thread nD τ).loc main_arg0)) (m ((c : Thread nD τ).loc main_arg1)) (m ((c : Thread nD τ).loc main_arg2))

/-- WHAT POINT `t` WRITES BACK is block `t` of the gated array. -/
theorem flushed_eq (c : Dev nD) (t : Fin cfg0.N) :
    (dats m 0 c).flushed 3 t = ((cfg0.win 3).blk t).view.read (Elt Ideal) (GV m c) := by
  rw [Value.flushed3 m c t]
  unfold out0_3
  rw [View.canon_unit_zero zeros3]
  simp only [View.ld_unit_zero (S := S400x16x256) zeros3, View.ld_unit_zero (S := S256x256) zeros2, View.ld_unit_zero (S := S256) zeros1]
  obtain ⟨a0, a1, a2, b0, b1, d0, o0, o1, o2⟩ := block_rows t
  have hN : grid0.N = 125 := N_0
  have ht : t.val < 125 := hN ▸ t.isLt
  funext (j : S400x16x256.Idx)
  obtain ⟨p, k, q, rfl⟩ : ∃ (p : Fin 400) (k : Fin 16) (q : Fin 256), j = ix3 p k q := ⟨j 0, j 1, j 2, eq_ix3 j⟩
  have hn : t.val * 400 + p.val < 50000 := by have := p.isLt; omega
  have hemb : ((cfg0.win 3).blk t).view.emb (ix3 p k q) = ix3 (⟨t.val * 400 + p.val, hn⟩ : Fin 50000) k q := by
    funext a; apply Fin.ext
    match a with
    | ⟨0, _⟩ => show win0_3.index t (0 : Fin 3) * 400 + 1 * p.val = t.val * 400 + p.val; omega
    | ⟨1, _⟩ => show win0_3.index t (1 : Fin 3) * 16 + 1 * k.val = k.val; omega
    | ⟨2, _⟩ => show win0_3.index t (2 : Fin 3) * 256 + 1 * q.val = q.val; omega
  show k0_pay1 (F := Ideal) (iblk m c 0 t) (iblk m c 1 t) (iblk m c 2 t) (ix3 p k q) = GV m c (((cfg0.win 3).blk t).view.emb (ix3 p k q))
  rw [hemb]
  refine block_entry (m ((c : Thread nD τ).loc main_arg0)) (m ((c : Thread nD τ).loc main_arg1)) (m ((c : Thread nD τ).loc main_arg2))
    (iblk m c 0 t) (iblk m c 1 t) (iblk m c 2 t) ⟨t.val * 400 + p.val, hn⟩ p k q ?_ ?_ ?_
  · intro j c'
    show V m c main_arg0 (((cfg0.win 0).blk t).view.emb (ix3 p j c')) = _
    rw [V_main_arg0]
    refine congrArg (m ((c : Thread nD τ).loc main_arg0)) ?_
    funext a; apply Fin.ext
    match a with
    | ⟨0, _⟩ => show win0_0.index t (0 : Fin 3) * 400 + 1 * p.val = t.val * 400 + p.val; omega
    | ⟨1, _⟩ => show win0_0.index t (1 : Fin 3) * 16 + 1 * j.val = j.val; omega
    | ⟨2, _⟩ => show win0_0.index t (2 : Fin 3) * 256 + 1 * c'.val = c'.val; omega
  · intro c' e
    show V m c main_v0 (((cfg0.win 1).blk t).view.emb (ix2 c' e)) = _
    have he : ((cfg0.win 1).blk t).view.emb (ix2 c' e) = ix2 c' e := by
      funext a; apply Fin.ext
      match a with
      | ⟨0, _⟩ => show win0_1.index t (0 : Fin 2) * 256 + 1 * c'.val = c'.val; omega
      | ⟨1, _⟩ => show win0_1.index t (1 : Fin 2) * 256 + 1 * e.val = e.val; omega
    rw [he]
    exact handed_matrix_apply m c c' e
  · intro e
    show V m c main_arg2 (((cfg0.win 2).blk t).view.emb (ix1 e)) = _
    rw [V_main_arg2]
    refine congrArg (m ((c : Thread nD τ).loc main_arg2)) ?_
    funext a; apply Fin.ext
    match a with
    | ⟨0, _⟩ => show win0_2.index t (0 : Fin 1) * 256 + 1 * e.val = e.val; omega

/-! ## The blocks cover the result -/

/-- An index of the result is in point `t`'s block iff each coordinate is in the block's range on its axis. -/
theorem mem_block (t : Fin cfg0.N) (i : S50000x16x256.Idx) :
    i ∈ ((cfg0.win 3).blk t).view.set ↔ ∀ a : Fin 3, win0_3.index t a * S400x16x256.size a ≤ (i a).val
      ∧ (i a).val < win0_3.index t a * S400x16x256.size a + S400x16x256.size a := by
  show i ∈ ((View.whole main_v1).slice (win0_3.rect t)).set ↔ _
  rw [View.set_slice_whole, Rect.mem_set_unit]
  exact Iff.rfl

/-- Node `n` is in block `n / 400`. -/
theorem cover (c : Dev nD) (i : S50000x16x256.Idx) :
    ∃ t : Fin cfg0.N, (cfg0.win 3).flush t = true ∧ i ∈ ((cfg0.win 3).blk t).view.set := by
  have hi0 : (i 0).val < 50000 := (i 0).isLt
  have hi1 : (i 1).val < 16 := (i 1).isLt
  have hi2 : (i 2).val < 256 := (i 2).isLt
  have hN : grid0.N = 125 := N_0
  have hlt : (i 0).val / 400 < grid0.N := by rw [hN]; omega
  obtain ⟨_, _, _, _, _, _, o0, o1, o2⟩ := block_rows ⟨(i 0).val / 400, hlt⟩
  have o0' : win0_3.index ⟨(i 0).val / 400, hlt⟩ (0 : Fin 3) = (i 0).val / 400 := o0
  refine ⟨⟨(i 0).val / 400, hlt⟩, flush0_3 _, ?_⟩
  rw [mem_block]
  intro a
  match a with
  | ⟨0, _⟩ =>
    show win0_3.index ⟨(i 0).val / 400, hlt⟩ (0 : Fin 3) * 400 ≤ (i 0).val
      ∧ (i 0).val < win0_3.index ⟨(i 0).val / 400, hlt⟩ (0 : Fin 3) * 400 + 400
    omega
  | ⟨1, _⟩ =>
    show win0_3.index ⟨(i 0).val / 400, hlt⟩ (1 : Fin 3) * 16 ≤ (i 1).val
      ∧ (i 1).val < win0_3.index ⟨(i 0).val / 400, hlt⟩ (1 : Fin 3) * 16 + 16
    omega
  | ⟨2, _⟩ =>
    show win0_3.index ⟨(i 0).val / 400, hlt⟩ (2 : Fin 3) * 256 ≤ (i 2).val
      ∧ (i 2).val < win0_3.index ⟨(i 0).val / 400, hlt⟩ (2 : Fin 3) * 256 + 256
    omega

/-- THE ARRAY after the run is the gated array. -/
theorem final (c : Dev nD) : (dats m 0 c).arrAt 3 cfg0.N = GV m c :=
  (dats m 0 c).arrAt_eq_of_cover 3 (GV m c) (fun t _ => flushed_eq m c t) (cover c)

/-! ## The run, read -/

/-- Every weakly fair run of the kernel's program ends with the result array the gated array of the arguments, and the
    arguments as they were. -/
theorem run : θ_run defs (onTc (τ := τ) (main (F := Ideal))) ⟨m, fun _ => 0, ρ⟩ fun r => ∀ c : Dev nD,
      r.2.mem ((c : Thread nD τ).loc main_v1) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Gate.Kern

end
-- ==== Proof.RefIsGate.lean ====
/-
  The reference computes the gated array. Read one operation at a time, its result at node n, component k, feature q
  is x(n, k, q) times 1 / (1 + e^(-z)), where z is the sum over c of (the root of the sum over the components of the
  squares of x(n, ·, c), kept as a middle axis of length one) times W(q, c), plus the bias at q. The sum of squares
  starts from the word of zero, which adds nothing; the quotient written out is the logistic function of z. That is
  the gate of node n at q, with the weight from c to q read as W(q, c).
-/
import proofs.«156940_j34772055229039_1_alg».proof.Proof.Gen.ReferenceIdeal.Read
import proofs.«156940_j34772055229039_1_alg».proof.Proof.GateSpec
import proofs.«156940_j34772055229039_1_alg».proof.Proof.LibMidAxis

noncomputable section

namespace Cert.Gate.Ref

open Idealize.ShloMosaic Idealize.ShloMosaic.ValueIdx Cert.ReferenceIdeal Cert.ReferenceIdeal.Gen Cert.ReferenceIdeal.Read
open Cert.Gate Cert.LibMidAxis

/-! The reference's composed index maps, at indices written by coordinates. -/

theorem spread_idx (n : Fin 50000) (k : Fin 16) (q : Fin 256) : idx_main_v14 (ix3 n k q) = ix3 n (0 : Fin 1) q :=
  funext fun a => Fin.ext (by match a with | ⟨0, _⟩ => rfl | ⟨1, _⟩ => rfl | ⟨2, _⟩ => rfl)

theorem dot_left_idx (n : Fin 50000) (q c : Fin 256) : lidx_main_v4 (ix3 n (0 : Fin 1) q) c = ix3 n (0 : Fin 1) c :=
  funext fun a => Fin.ext (by match a with | ⟨0, _⟩ => rfl | ⟨1, _⟩ => rfl | ⟨2, _⟩ => rfl)

theorem dot_right_idx (n : Fin 50000) (q c : Fin 256) : ridx_main_v4 (ix3 n (0 : Fin 1) q) c = ix2 q c :=
  funext fun a => Fin.ext (by match a with | ⟨0, _⟩ => rfl | ⟨1, _⟩ => rfl)

theorem keep_idx (n : Fin 50000) (c : Fin 256) : idx_main_v2 (ix3 n (0 : Fin 1) c) = ix2 n c :=
  funext fun a => Fin.ext (by match a with | ⟨0, _⟩ => rfl | ⟨1, _⟩ => rfl)

theorem sum_idx (n : Fin 50000) (c : Fin 256) (j : Fin 16) : idx_main_v1 (ix2 n c) j = ix3 n j c :=
  funext fun a => Fin.ext (by match a with | ⟨0, _⟩ => rfl | ⟨1, _⟩ => rfl | ⟨2, _⟩ => rfl)

theorem bias_rows_idx (n : Fin 50000) (q : Fin 256) : idx_main_v6 (ix3 n (0 : Fin 1) q) = ix3 (0 : Fin 1) (0 : Fin 1) q :=
  funext fun a => Fin.ext (by match a with | ⟨0, _⟩ => rfl | ⟨1, _⟩ => rfl | ⟨2, _⟩ => rfl)

theorem bias_idx (q : Fin 256) : idx_main_v5 (ix3 (0 : Fin 1) (0 : Fin 1) q) = ix1 q :=
  funext fun a => Fin.ext (by match a with | ⟨0, _⟩ => rfl)

/-- The reference's last stage is the gated array. -/
theorem ref_is_G (x : (⟨S50000x16x256, .f32⟩ : BufTy).Contents (Elt Ideal)) (W : (⟨S256x256, .f32⟩ : BufTy).Contents (Elt Ideal))
    (b : (⟨S256, .f32⟩ : BufTy).Contents (Elt Ideal)) : val_main_v15 (F := Ideal) x W b = G x W b := by
  funext i
  obtain ⟨n, k, q, rfl⟩ : ∃ (n : Fin 50000) (k : Fin 16) (q : Fin 256), i = ix3 n k q := ⟨i 0, i 1, i 2, eq_ix3 i⟩
  rw [G_ix3]
  unfold gated gate Cert.LibDenseRows.dense
  rw [val_main_v15_apply, val_main_v14_apply, spread_idx, val_main_v13_apply, val_main_v12_apply, val_main_cst_1_apply,
    val_main_v11_apply, val_main_v10_apply, val_main_cst_0_apply, val_main_v9_apply, val_main_v8_apply, val_main_v7_apply,
    val_main_v4_apply, val_main_v6_apply, bias_rows_idx, val_main_v5_apply, bias_idx]
  simp only [dot_left_idx, dot_right_idx, val_main_v3_apply, val_main_v2_apply, keep_idx, val_main_v1_apply, sum_idx,
    val_main_v0_apply, val_main_cst_apply, Ideal.mulf_def, Ideal.addf_def, Ideal.hostDivf_def, Ideal.hostUnary_exp_def,
    Ideal.hostUnary_sqrt_def, Ideal.hostNegf_def, Ideal.negf_def, Ideal.ofBits_def, Ideal.ofBits_zero_f32, zero_add]
  rw [logistic_written_out]

end Cert.Gate.Ref

end
-- ==== Proof.lean ====
/-
  A gate computed from per-node norms, applied to every entry. x holds 50000 nodes, each with 16 components of 256
  features. For a node, the norm of feature c is the square root of the sum over the 16 components of the squared
  entries at c; the node's gate at feature q is the logistic function of the sum over c of norm(c) · W(q, c), plus
  b(q); the result multiplies every entry of x by its node's gate at the entry's feature.

  The kernel works on blocks of 400 nodes: it sums the squares along the component axis, takes the root, multiplies the
  400 × 256 norms by the transpose of W (made on the host before the launch) into a zero accumulator, adds the bias
  row, applies the logistic function as one operation and spreads the gates back over the components. The reference
  does the same on all 50000 nodes at once, keeping the norms as a middle axis of length one, contracting them with
  the second axis of W directly, and writing the logistic function out as 1 / (1 + e^(-z)).

  Over the extended reals a change of float format changes no entry, the two matrix products are the same sum over
  the 256 features, the zero a sum starts from adds nothing, and the written-out quotient is the logistic function at
  every extended real, the infinities included. No step moves a factor across a sum or cancels, so nothing here needs
  the inputs to be finite. The kernel's blocks are disjoint row ranges that cover the result, so the array after its run
  is the gated array, which is also the reference's last stage. The idealized kernel is the kernel's own text read
  over the extended reals: nothing was rewritten, so there is nothing to preserve.
-/
import proofs.«156940_j34772055229039_1_alg».proof.Defs
import proofs.«156940_j34772055229039_1_alg».proof.Proof.Gen.Kernel
import proofs.«156940_j34772055229039_1_alg».proof.Proof.Gen.Kernel.Skeleton
import proofs.«156940_j34772055229039_1_alg».proof.Proof.Gen.Kernel.Launch
import proofs.«156940_j34772055229039_1_alg».proof.Proof.Gen.Kernel.Points
import proofs.«156940_j34772055229039_1_alg».proof.Proof.Gen.Kernel.Frame
import proofs.«156940_j34772055229039_1_alg».proof.Proof.Gen.KernelIdeal
import proofs.«156940_j34772055229039_1_alg».proof.Proof.Gen.KernelIdeal.Skeleton
import proofs.«156940_j34772055229039_1_alg».proof.Proof.Gen.KernelIdeal.Launch
import proofs.«156940_j34772055229039_1_alg».proof.Proof.Gen.KernelIdeal.Points
import proofs.«156940_j34772055229039_1_alg».proof.Proof.Gen.KernelIdeal.Frame
import proofs.«156940_j34772055229039_1_alg».proof.Proof.Gen.ReferenceIdeal
import proofs.«156940_j34772055229039_1_alg».proof.Proof.Gen.Pre_finite_inputs
import proofs.«156940_j34772055229039_1_alg».proof.Proof.Gen.KernelIdeal.Value
import proofs.«156940_j34772055229039_1_alg».proof.Proof.Gen.ReferenceIdeal.Run
import proofs.«156940_j34772055229039_1_alg».proof.Proof.Gen.ReferenceIdeal.Read
import proofs.«156940_j34772055229039_1_alg».proof.Proof.GateBlocks
import proofs.«156940_j34772055229039_1_alg».proof.Proof.RefIsGate
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the gated array of arguments that agree. -/
theorem gated_both : Cert.algebraic_KernelIdeal_ReferenceIdeal := by
  intro m ρ m' ρ' _ hagree
  refine ⟨fun c => Cert.Gate.Kern.GV m c, Cert.Gate.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Gate.Ref.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, gated_both⟩

end Cert.Proof

end
